-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2000000 : Shape := ⟨1, ![2000000]⟩
abbrev S5x64x64 : Shape := ⟨3, ![5, 64, 64]⟩
abbrev S5x64 : Shape := ⟨2, ![5, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S5x64x64 : S_.BroadcastsInDim S5x64x64 (![] : Fin 0 → Fin S5x64x64.rank)
  reducesTo_S5x64x64_S_d0_1_2 : S5x64x64.ReducesTo [0, 1, 2] S_
  bcast_S_S5x64 : S_.BroadcastsInDim S5x64 (![] : Fin 0 → Fin S5x64.rank)
  reducesTo_S5x64_S_d0_1 : S5x64.ReducesTo [0, 1] S_

variable [Facts]

def fn_part1 {F : FTy → Type} [FloatOps F] (main_v13 : IVec S_ 1) (main_v16 : IVec S5x64 1) : IVec S_ 1 :=
  let main_c_5 : IVec S_ 1 := constantI S_ 1 1#1
  let main_v17 : IVec S_ 1 := (fun x v => Host.reduce IntOp.andi x v reducesTo_S5x64_S_d0_1 h_S_) main_v16 main_c_5
  let main_v18 : IVec S_ 1 := andi main_v13 main_v17
  main_v18

def fn {F : FTy → Type} [FloatOps F] (main_arg0 : FVec F S100000x64 .f32) (main_arg1 : FVec F S50000x64 .f32) (main_arg2 : IVec S2000000 32) (main_arg3 : IVec S2000000 32) (main_arg4 : FVec F S5x64x64 .f32) (main_arg5 : FVec F S5x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S5x64x64 .f32 := Host.absf main_arg4
  let main_cst_2 : FVec F S_ .f32 := constant S_ .f32 0x7F800000#32
  let main_v10 : FVec F S5x64x64 .f32 := broadcastInDim S5x64x64 ![] bcast_S_S5x64x64 main_cst_2
  let main_v11 : IVec S5x64x64 1 := cmpf .olt main_v9 main_v10
  let main_c_3 : IVec S_ 1 := constantI S_ 1 1#1
  let main_v12 : IVec S_ 1 := (fun x v => Host.reduce IntOp.andi x v reducesTo_S5x64x64_S_d0_1_2 h_S_) main_v11 main_c_3
  let main_v13 : IVec S_ 1 := andi main_v8 main_v12
  let main_v14 : FVec F S5x64 .f32 := Host.absf main_arg5
  let main_cst_4 : FVec F S_ .f32 := constant S_ .f32 0x7F800000#32
  let main_v15 : FVec F S5x64 .f32 := broadcastInDim S5x64 ![] bcast_S_S5x64 main_cst_4
  let main_v16 : IVec S5x64 1 := cmpf .olt main_v14 main_v15
  fn_part1 (F := F) main_v13 main_v16
-- ==== Kernel.lean ====
abbrev S100000x64 : Shape := ⟨2, ![100000, 64]⟩
abbrev S50000x64 : Shape := ⟨2, ![50000, 64]⟩
abbrev S2000000 : Shape := ⟨1, ![2000000]⟩
abbrev S5x64x64 : Shape := ⟨3, ![5, 64, 64]⟩
abbrev S5x64 : Shape := ⟨2, ![5, 64]⟩
abbrev S_ : Shape := ⟨0, ![]⟩
abbrev S2000000x1 : Shape := ⟨2, ![2000000, 1]⟩
abbrev S2000000x64 : Shape := ⟨2, ![2000000, 64]⟩
abbrev S5x2000000 : Shape := ⟨2, ![5, 2000000]⟩
abbrev S3200x64 : Shape := ⟨2, ![3200, 64]⟩
abbrev S5x3200 : Shape := ⟨2, ![5, 3200]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S3200 : Shape := ⟨1, ![3200]⟩
abbrev S1x3200 : Shape := ⟨2, ![1, 3200]⟩
abbrev S2000000x5 : Shape := ⟨2, ![2000000, 5]⟩

abbrev nBuf : Space → Nat
  | .hbm => 28
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .i32⟩
  | .hbm, ⟨3, _⟩ => ⟨S2000000, .i32⟩
  | .hbm, ⟨4, _⟩ => ⟨S5x64x64, .f32⟩
  | .hbm, ⟨5, _⟩ => ⟨S5x64, .f32⟩
  | .hbm, ⟨6, _⟩ => ⟨S100000x64, .bf16⟩
  | .hbm, ⟨7, _⟩ => ⟨S50000x64, .bf16⟩
  | .hbm, ⟨8, _⟩ => ⟨S_, .i32⟩
  | .hbm, ⟨9, _⟩ => ⟨S2000000, .i32⟩
  | .hbm, ⟨10, _⟩ => ⟨S2000000, .i1⟩
  | .hbm, ⟨11, _⟩ => ⟨S_, .i32⟩
  | .hbm, ⟨12, _⟩ => ⟨S2000000, .i32⟩
  | .hbm, ⟨13, _⟩ => ⟨S2000000, .i32⟩
  | .hbm, ⟨14, _⟩ => ⟨S2000000, .i32⟩
  | .hbm, ⟨15, _⟩ => ⟨S2000000x1, .i32⟩
  | .hbm, ⟨16, _⟩ => ⟨S2000000x64, .bf16⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x64, .bf16⟩
  | .hbm, ⟨26, _⟩ => ⟨S5x2000000, .f32⟩
  | .hbm, ⟨27, _⟩ => ⟨S2000000x5, .f32⟩
  | .local _ .vmem, ⟨0, _⟩ => ⟨S3200x64, .bf16⟩
  | .local _ .vmem, ⟨1, _⟩ => ⟨S3200x64, .bf16⟩
  | .local _ .vmem, ⟨2, _⟩ => ⟨S3200x64, .bf16⟩
  | .local _ .vmem, ⟨3, _⟩ => ⟨S3200x64, .bf16⟩
  | .local _ .vmem, ⟨4, _⟩ => ⟨S5x64x64, .f32⟩
  | .local _ .vmem, ⟨5, _⟩ => ⟨S5x64, .f32⟩
  | .local _ .vmem, ⟨6, _⟩ => ⟨S5x3200, .f32⟩
  | .local _ .vmem, ⟨7, _⟩ => ⟨S5x3200, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3200x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  bcast_S_S2000000 : S_.BroadcastsInDim S2000000 (![] : Fin 0 → Fin S2000000.rank)
  bcast_S2000000_S2000000x1_0 : S2000000.BroadcastsInDim S2000000x1 (![0] : Fin 1 → Fin S2000000x1.rank)
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S5x64x64_S1x64x64_0_0_0 : ∀ a, (![0, 0, 0] : Fin 3 → Nat) a + S1x64x64.size a ≤ S5x64x64.size a
  h_S1x64x64 : 0 < S1x64x64.numel
  shapeCasts_S1x64x64_S64x64 : S1x64x64.ShapeCasts S64x64
  transposes_S64x64_p1_0_S64x64 : S64x64.Transposes [1, 0] S64x64
  inb_S5x64_S1x64_0_0 : ∀ a, (![0, 0] : Fin 2 → Nat) a + S1x64.size a ≤ S5x64.size a
  h_S1x64 : 0 < S1x64.numel
  shapeCasts_S1x64_S64 : S1x64.ShapeCasts S64
  shapeCasts_S64_S1x64 : S64.ShapeCasts S1x64
  broadcasts_S1x64_S3200x64 : S1x64.Broadcasts S3200x64
  reduces_S3200x64_S3200 : S3200x64.Reduces [1] S3200
  inb_S5x3200_S1x3200_0_0 : ∀ a, (![0, 0] : Fin 2 → Nat) a + S1x3200.size a ≤ S5x3200.size a
  h_S1x3200 : 0 < S1x3200.numel
  shapeCasts_S1x3200_S3200 : S1x3200.ShapeCasts S3200
  shapeCasts_S3200_S1x3200 : S3200.ShapeCasts S1x3200
  inb_S5x64x64_S1x64x64_1_0_0 : ∀ a, (![1, 0, 0] : Fin 3 → Nat) a + S1x64x64.size a ≤ S5x64x64.size a
  inb_S5x64_S1x64_1_0 : ∀ a, (![1, 0] : Fin 2 → Nat) a + S1x64.size a ≤ S5x64.size a
  inb_S5x3200_S1x3200_1_0 : ∀ a, (![1, 0] : Fin 2 → Nat) a + S1x3200.size a ≤ S5x3200.size a
  inb_S5x64x64_S1x64x64_2_0_0 : ∀ a, (![2, 0, 0] : Fin 3 → Nat) a + S1x64x64.size a ≤ S5x64x64.size a
  inb_S5x64_S1x64_2_0 : ∀ a, (![2, 0] : Fin 2 → Nat) a + S1x64.size a ≤ S5x64.size a
  inb_S5x3200_S1x3200_2_0 : ∀ a, (![2, 0] : Fin 2 → Nat) a + S1x3200.size a ≤ S5x3200.size a
  inb_S5x64x64_S1x64x64_3_0_0 : ∀ a, (![3, 0, 0] : Fin 3 → Nat) a + S1x64x64.size a ≤ S5x64x64.size a
  inb_S5x64_S1x64_3_0 : ∀ a, (![3, 0] : Fin 2 → Nat) a + S1x64.size a ≤ S5x64.size a
  inb_S5x3200_S1x3200_3_0 : ∀ a, (![3, 0] : Fin 2 → Nat) a + S1x3200.size a ≤ S5x3200.size a
  inb_S5x64x64_S1x64x64_4_0_0 : ∀ a, (![4, 0, 0] : Fin 3 → Nat) a + S1x64x64.size a ≤ S5x64x64.size a
  inb_S5x64_S1x64_4_0 : ∀ a, (![4, 0] : Fin 2 → Nat) a + S1x64.size a ≤ S5x64.size a
  inb_S5x3200_S1x3200_4_0 : ∀ a, (![4, 0] : Fin 2 → Nat) a + S1x3200.size a ≤ S5x3200.size a
  transposes_S5x2000000_S2000000x5_1_0 : S5x2000000.Transposes [1, 0] S2000000x5
  gather_S100000x64_S2000000x1_S2000000x64_1_0_n_n_0_1_164_wf : GatherDims.WF S100000x64 S2000000x1 S2000000x64 [1] [0] [] [0] [] 1 ![1, 64]
  gather_S50000x64_S2000000x1_S2000000x64_1_0_n_n_0_1_164_wf : GatherDims.WF S50000x64 S2000000x1 S2000000x64 [1] [0] [] [0] [] 1 ![1, 64]
  dot_S3200x64_S64x64_S3200x64_1_0_0_1_n_n_wf : DotDims.WF S3200x64 S64x64 S3200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S2000000x64.size a
  hwx0_0 : ∀ i : grid0.Coords, EltTy.bits .bf16 = 32 ∨ (Rect.block (s := S2000000x64) S3200x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S2000000x64.size a
  hwx0_1 : ∀ i : grid0.Coords, EltTy.bits .bf16 = 32 ∨ (Rect.block (s := S2000000x64) S3200x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x64x64.size a ≤ S5x64x64.size a
  hwx0_2 : ∀ i : grid0.Coords, EltTy.bits .f32 = 32 ∨ (Rect.block (s := S5x64x64) S5x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x64.size a ≤ S5x64.size a
  hwx0_3 : ∀ i : grid0.Coords, EltTy.bits .f32 = 32 ∨ (Rect.block (s := S5x64) S5x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5x3200.size a ≤ S5x2000000.size a
  hwx0_4 : ∀ i : grid0.Coords, EltTy.bits .f32 = 32 ∨ (Rect.block (s := S5x2000000) S5x3200.size (cc0_transform_4 i) (hinb0_4 i)).WholeWords (EltTy.packing .f32)

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf

abbrev win0_0 : Pipeline.Window sig grid0 :=
  Pipeline.Window.ofSpec (Memref.whole main_v8) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S5x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S5x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5x3200.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S2000000 : Shape := ⟨1, ![2000000]⟩
abbrev S5x64x64 : Shape := ⟨3, ![5, 64, 64]⟩
abbrev S5x64 : Shape := ⟨2, ![5, 64]⟩
abbrev S_ : Shape := ⟨0, ![]⟩
abbrev S2000000x1 : Shape := ⟨2, ![2000000, 1]⟩
abbrev S2000000x64 : Shape := ⟨2, ![2000000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S2000000x5 : Shape := ⟨2, ![2000000, 5]⟩

abbrev nBuf : Space → Nat
  | .hbm => 90
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .i32⟩
  | .hbm, ⟨3, _⟩ => ⟨S2000000, .i32⟩
  | .hbm, ⟨4, _⟩ => ⟨S5x64x64, .f32⟩
  | .hbm, ⟨5, _⟩ => ⟨S5x64, .f32⟩
  | .hbm, ⟨6, _⟩ => ⟨S_, .i32⟩
  | .hbm, ⟨7, _⟩ => ⟨S2000000, .i32⟩
  | .hbm, ⟨8, _⟩ => ⟨S2000000, .i1⟩
  | .hbm, ⟨9, _⟩ => ⟨S_, .i32⟩
  | .hbm, ⟨10, _⟩ => ⟨S2000000, .i32⟩
  | .hbm, ⟨11, _⟩ => ⟨S2000000, .i32⟩
  | .hbm, ⟨12, _⟩ => ⟨S2000000, .i32⟩
  | .hbm, ⟨13, _⟩ => ⟨S2000000x1, .i32⟩
  | .hbm, ⟨14, _⟩ => ⟨S2000000x64, .f32⟩
  | .hbm, ⟨15, _⟩ => ⟨S_, .i32⟩
  | .hbm, ⟨16, _⟩ => ⟨S2000000, .i32⟩
  | .hbm, ⟨17, _⟩ => ⟨S2000000, .i1⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S2000000x1, .i32⟩
  | .hbm, ⟨23, _⟩ => ⟨S2000000x64, .f32⟩
  | .hbm, ⟨24, _⟩ => ⟨S1x64x64, .f32⟩
  | .hbm, ⟨25, _⟩ => ⟨S64x64, .f32⟩
  | .hbm, ⟨26, _⟩ => ⟨S64x64, .f32⟩
  | .hbm, ⟨27, _⟩ => ⟨S2000000x64, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S2000000x64, .f32⟩
  | .hbm, ⟨32, _⟩ => ⟨S2000000x64, .f32⟩
  | .hbm, ⟨33, _⟩ => ⟨S2000000x64, .f32⟩
  | .hbm, ⟨34, _⟩ => ⟨S_, .f32⟩
  | .hbm, ⟨35, _⟩ => ⟨S2000000, .f32⟩
  | .hbm, ⟨36, _⟩ => ⟨S1x64x64, .f32⟩
  | .hbm, ⟨37, _⟩ => ⟨S64x64, .f32⟩
  | .hbm, ⟨38, _⟩ => ⟨S64x64, .f32⟩
  | .hbm, ⟨39, _⟩ => ⟨S2000000x64, .f32⟩
  | .hbm, ⟨40, _⟩ => ⟨S1x64, .f32⟩
  | .hbm, ⟨41, _⟩ => ⟨S64, .f32⟩
  | .hbm, ⟨42, _⟩ => ⟨S1x64, .f32⟩
  | .hbm, ⟨43, _⟩ => ⟨S2000000x64, .f32⟩
  | .hbm, ⟨44, _⟩ => ⟨S2000000x64, .f32⟩
  | .hbm, ⟨45, _⟩ => ⟨S2000000x64, .f32⟩
  | .hbm, ⟨46, _⟩ => ⟨S_, .f32⟩
  | .hbm, ⟨47, _⟩ => ⟨S2000000, .f32⟩
  | .hbm, ⟨48, _⟩ => ⟨S1x64x64, .f32⟩
  | .hbm, ⟨49, _⟩ => ⟨S64x64, .f32⟩
  | .hbm, ⟨50, _⟩ => ⟨S64x64, .f32⟩
  | .hbm, ⟨51, _⟩ => ⟨S2000000x64, .f32⟩
  | .hbm, ⟨52, _⟩ => ⟨S1x64, .f32⟩
  | .hbm, ⟨53, _⟩ => ⟨S64, .f32⟩
  | .hbm, ⟨54, _⟩ => ⟨S1x64, .f32⟩
  | .hbm, ⟨55, _⟩ => ⟨S2000000x64, .f32⟩
  | .hbm, ⟨56, _⟩ => ⟨S2000000x64, .f32⟩
  | .hbm, ⟨57, _⟩ => ⟨S2000000x64, .f32⟩
  | .hbm, ⟨58, _⟩ => ⟨S_, .f32⟩
  | .hbm, ⟨59, _⟩ => ⟨S2000000, .f32⟩
  | .hbm, ⟨60, _⟩ => ⟨S1x64x64, .f32⟩
  | .hbm, ⟨61, _⟩ => ⟨S64x64, .f32⟩
  | .hbm, ⟨62, _⟩ => ⟨S64x64, .f32⟩
  | .hbm, ⟨63, _⟩ => ⟨S2000000x64, .f32⟩
  | .hbm, ⟨64, _⟩ => ⟨S1x64, .f32⟩
  | .hbm, ⟨65, _⟩ => ⟨S64, .f32⟩
  | .hbm, ⟨66, _⟩ => ⟨S1x64, .f32⟩
  | .hbm, ⟨67, _⟩ => ⟨S2000000x64, .f32⟩
  | .hbm, ⟨68, _⟩ => ⟨S2000000x64, .f32⟩
  | .hbm, ⟨69, _⟩ => ⟨S2000000x64, .f32⟩
  | .hbm, ⟨70, _⟩ => ⟨S_, .f32⟩
  | .hbm, ⟨71, _⟩ => ⟨S2000000, .f32⟩
  | .hbm, ⟨72, _⟩ => ⟨S1x64x64, .f32⟩
  | .hbm, ⟨73, _⟩ => ⟨S64x64, .f32⟩
  | .hbm, ⟨74, _⟩ => ⟨S64x64, .f32⟩
  | .hbm, ⟨75, _⟩ => ⟨S2000000x64, .f32⟩
  | .hbm, ⟨76, _⟩ => ⟨S1x64, .f32⟩
  | .hbm, ⟨77, _⟩ => ⟨S64, .f32⟩
  | .hbm, ⟨78, _⟩ => ⟨S1x64, .f32⟩
  | .hbm, ⟨79, _⟩ => ⟨S2000000x64, .f32⟩
  | .hbm, ⟨80, _⟩ => ⟨S2000000x64, .f32⟩
  | .hbm, ⟨81, _⟩ => ⟨S2000000x64, .f32⟩
  | .hbm, ⟨82, _⟩ => ⟨S_, .f32⟩
  | .hbm, ⟨83, _⟩ => ⟨S2000000, .f32⟩
  | .hbm, ⟨84, _⟩ => ⟨S2000000x1, .f32⟩
  | .hbm, ⟨85, _⟩ => ⟨S2000000x1, .f32⟩
  | .hbm, ⟨86, _⟩ => ⟨S2000000x1, .f32⟩
  | .hbm, ⟨87, _⟩ => ⟨S2000000x1, .f32⟩
  | .hbm, ⟨88, _⟩ => ⟨S2000000x1, .f32⟩
  | .hbm, ⟨89, _⟩ => ⟨S2000000x5, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_6 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S5x64x64_S1x64x64_0_0_0 : S5x64x64.Slices ![0, 0, 0] S1x64x64
  shapeCasts_S1x64x64_S64x64 : S1x64x64.ShapeCasts S64x64
  transposes_S64x64_S64x64_1_0 : S64x64.Transposes [1, 0] S64x64
  slices_S5x64_S1x64_0_0 : S5x64.Slices ![0, 0] S1x64
  shapeCasts_S1x64_S64 : S1x64.ShapeCasts S64
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  reducesTo_S2000000x64_S2000000_d1 : S2000000x64.ReducesTo [1] S2000000
  h_S_ : 0 < S_.numel
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  concatenates_S2000000x1_S2000000x1_S2000000x1_S2000000x1_S2000000x1_S2000000x5_d1 : Shape.Concatenates [S2000000x1, S2000000x1, S2000000x1, S2000000x1, S2000000x1] S2000000x5 1
  gather_S100000x64_S2000000x1_S2000000x64_1_0_n_n_0_1_164_wf : GatherDims.WF S100000x64 S2000000x1 S2000000x64 [1] [0] [] [0] [] 1 ![1, 64]
  gather_S50000x64_S2000000x1_S2000000x64_1_0_n_n_0_1_164_wf : GatherDims.WF S50000x64 S2000000x1 S2000000x64 [1] [0] [] [0] [] 1 ![1, 64]
  dot_S2000000x64_S64x64_S2000000x64_1_0_0_1_n_n_wf : DotDims.WF S2000000x64 S64x64 S2000000x64 [1] [0] [0] [1] [] []

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def dot_S2000000x64_S64x64_S2000000x64_1_0_0_1_n_n : DotDims S2000000x64 S64x64 S2000000x64 where
  lhsContracting := [1]
  rhsContracting := [0]
  lhsNonContracting := [0]
  rhsNonContracting := [1]
  lhsBatch := []
  rhsBatch := []
  wf := dot_S2000000x64_S64x64_S2000000x64_1_0_0_1_n_n_wf

class Facts : Prop extends Facts₀ where

variable [Facts]
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibBilinearScore.lean ====
/-
  A bilinear score with a bias, read at an entry (a general lemma: nothing here depends on a program).

  For two feature rows u, v of length D, a square weight w and a bias b, the score is

      Σ_j ((Σ_k u_k · w_{j,k}) + b_j) · v_j ,

  the inner product of the affine image w·u + b with v. Two spellings of it over arrays of rows are read at an
  entry at the ideal values. The block spelling: a [1,D,D] slab recast to [D,D], narrowed, transposed and multiplied
  on the right of the [E,D] rows into a zero accumulator, a [1,D] bias row recast and broadcast down the rows added,
  the product with the second [E,D] rows summed along each row and recast to one row [1,E]. The whole-array spelling:
  slab r cut out of [R,D,D] and bias row r out of [R,D], the slab recast and transposed, the host's product, the
  bias through two broadcasts, the product with the second rows summed by the host's add-reduction. Both hold at
  edge e the score of rows e under the slab and the bias row; no rearrangement of a sum is involved, so nothing
  here asks the entries to be finite.
-/
import Idealize.ShloMosaic.Lib.ValueIdx
import Idealize.ShloMosaic.Lib.Pipeline.Value
import Idealize.ShloMosaic.PureOps.Ideal.Laws
import proofs.«164486_j80315888435313_1_alg».proof.Proof.LibMatmul
import proofs.«164486_j80315888435313_1_alg».proof.Proof.LibLayout
import proofs.«164486_j80315888435313_1_alg».proof.Proof.LibAxisSum

noncomputable section

open scoped BigOperators

namespace Cert.Lib.BilinearScore

open Idealize.ShloMosaic Idealize.ShloMosaic.ValueIdx

/-- The score of two feature rows under one weight and bias: the affine image of the first paired with the second. -/
def score {D : Nat} (u v : Fin D → EReal) (w : Fin D → Fin D → EReal) (b : Fin D → EReal) : EReal :=
  ∑ j : Fin D, ((∑ k : Fin D, u k * w j k) + b j) * v j

/-- The score depends only on the entries of its four arguments. -/
theorem score_congr {D : Nat} {u u' v v' : Fin D → EReal} {w w' : Fin D → Fin D → EReal} {b b' : Fin D → EReal}
    (hu : ∀ k, u k = u' k) (hv : ∀ j, v j = v' j) (hw : ∀ j k, w j k = w' j k) (hb : ∀ j, b j = b' j) :
    score u v w b = score u' v' w' b' := by
  rw [show u = u' from funext hu, show v = v' from funext hv, show w = w' from funext fun j => funext (hw j),
    show b = b' from funext hb]

/-- A [1,D,D] slab viewed [D,D] and transposed holds at (k, j) the slab's entry (0, j, k). -/
theorem slabT_apply {α : Type} {D : Nat} (wS : (⟨3, ![1, D, D]⟩ : Shape).Idx → α)
    (hw : (⟨3, ![1, D, D]⟩ : Shape).ShapeCasts ⟨2, ![D, D]⟩)
    (ht : (⟨2, ![D, D]⟩ : Shape).Transposes [1, 0] ⟨2, ![D, D]⟩) (k j : Fin D) :
    transpose ⟨2, ![D, D]⟩ [1, 0] (shapeCast ⟨2, ![D, D]⟩ wS hw) ht (ix2 k j) = wS (ix3 0 j k) := by
  rw [transpose_apply [1, 0] _ ht (ix2 k j) (ix2 j k) (fun b => by
    match b with
    | ⟨0, _⟩ => rfl
    | ⟨1, _⟩ => rfl)]
  refine (shapeCast_dropUnit_apply (n := 2) ![D, D] wS hw (ix2 j k)).trans (congrArg wS ?_)
  funext a
  match a with
  | ⟨0, _⟩ => rfl
  | ⟨1, _⟩ => rfl
  | ⟨2, _⟩ => rfl

/-- A [1,D] row viewed as a vector holds at j the row's entry (0, j). -/
theorem rowVec_apply {α : Type} {D : Nat} (bS : (⟨2, ![1, D]⟩ : Shape).Idx → α)
    (hb : (⟨2, ![1, D]⟩ : Shape).ShapeCasts ⟨1, ![D]⟩) (j : Fin D) :
    shapeCast ⟨1, ![D]⟩ bS hb (ix1 j) = bS (ix2 0 j) := by
  refine (shapeCast_dropUnit_apply (n := 1) ![D] bS hb (ix1 j)).trans (congrArg bS ?_)
  funext a
  match a with
  | ⟨0, _⟩ => rfl
  | ⟨1, _⟩ => rfl

/-- The block spelling at (0, e): the score of rows e of the two blocks under the slab and the bias row. -/
theorem block_apply {E D : Nat}
    (u : FVec Ideal ⟨2, ![E, D]⟩ .bf16) (v : FVec Ideal ⟨2, ![E, D]⟩ .f32)
    (wS : FVec Ideal ⟨3, ![1, D, D]⟩ .f32) (bS : FVec Ideal ⟨2, ![1, D]⟩ .f32)
    (hw : (⟨3, ![1, D, D]⟩ : Shape).ShapeCasts ⟨2, ![D, D]⟩) (hlt : FTy.bf16.bits < FTy.f32.bits)
    (ht : (⟨2, ![D, D]⟩ : Shape).Transposes [1, 0] ⟨2, ![D, D]⟩)
    (hb1 : (⟨2, ![1, D]⟩ : Shape).ShapeCasts ⟨1, ![D]⟩) (hb2 : (⟨1, ![D]⟩ : Shape).ShapeCasts ⟨2, ![1, D]⟩)
    (hb3 : (⟨2, ![1, D]⟩ : Shape).Broadcasts ⟨2, ![E, D]⟩)
    (hr : (⟨2, ![E, D]⟩ : Shape).Reduces [1] ⟨1, ![E]⟩) (hφ : FKind.Formats .f32)
    (hacc : (0x00000000#32 : BitVec FTy.f32.bits) = FKind.add.neutral .f32 hφ)
    (ho : (⟨1, ![E]⟩ : Shape).ShapeCasts ⟨2, ![1, E]⟩) (z : Fin 1) (e : Fin E) :
    shapeCast ⟨2, ![1, E]⟩
        (multiReduction .add [1] ⟨1, ![E]⟩
          (mulf (addf (matmul (DotDims.plain E D D) none u
                    (transpose ⟨2, ![D, D]⟩ [1, 0] (truncf .bf16 (shapeCast ⟨2, ![D, D]⟩ wS hw) hlt) ht)
                    (constant ⟨2, ![E, D]⟩ .f32 0x00000000#32))
                  (broadcastTo ⟨2, ![E, D]⟩ (shapeCast ⟨2, ![1, D]⟩ (shapeCast ⟨1, ![D]⟩ bS hb1) hb2) hb3)) v)
          0x00000000#32 hr hφ hacc) ho (ix2 z e)
      = score (fun k => u (ix2 e k)) (fun j => v (ix2 e j)) (fun j k => wS (ix3 0 j k)) (fun j => bS (ix2 0 j)) := by
  rw [Cert.Lib.Layout.rowCast_apply _ ho z e, Cert.Lib.AxisSum.rowSum_apply]
  unfold score
  refine Finset.sum_congr rfl fun j _ => ?_
  rw [mulf_apply, addf_apply, Cert.Lib.Layout.bcastRow_apply, rowVec_apply]
  refine congrArg (fun s => (s + bS (ix2 0 j)) * v (ix2 e j)) ?_
  refine (Cert.Lib.Matmul.matmul_zero_apply none u _ e j).trans (Finset.sum_congr rfl fun k _ => ?_)
  exact congrArg (u (ix2 e k) * ·) (slabT_apply (α := EReal) wS hw ht k j)

/-- Slab r cut out of an [R,D,D] array, viewed [D,D] and transposed, holds at (k, j) the array's entry (r, j, k). -/
theorem sliceSlabT_apply {α : Type} {R D : Nat} (W : (⟨3, ![R, D, D]⟩ : Shape).Idx → α) (r : Fin R)
    (off : Fin 3 → Nat) (hoff : off = ![r.val, 0, 0])
    (hs : (⟨3, ![R, D, D]⟩ : Shape).Slices off ⟨3, ![1, D, D]⟩)
    (hw : (⟨3, ![1, D, D]⟩ : Shape).ShapeCasts ⟨2, ![D, D]⟩)
    (ht : (⟨2, ![D, D]⟩ : Shape).Transposes [1, 0] ⟨2, ![D, D]⟩) (k j : Fin D) :
    transpose ⟨2, ![D, D]⟩ [1, 0] (shapeCast ⟨2, ![D, D]⟩ (extractStridedSlice ⟨3, ![1, D, D]⟩ off W hs) hw) ht (ix2 k j)
      = W (ix3 r j k) := by
  rw [slabT_apply]
  subst hoff
  refine extractStridedSlice_apply _ W hs (ix3 0 j k) (ix3 r j k) (fun a => ?_)
  match a with
  | ⟨0, _⟩ => show r.val = r.val + 0; rfl
  | ⟨1, _⟩ => show j.val = 0 + j.val; omega
  | ⟨2, _⟩ => show k.val = 0 + k.val; omega

/-- Row r cut out of an [R,D] array, viewed as a vector and broadcast twice (to one row, then down E rows), holds at
    (e, j) the array's entry (r, j). -/
theorem sliceRowBcast_apply {α : Type} {E R D : Nat} (b : (⟨2, ![R, D]⟩ : Shape).Idx → α) (r : Fin R)
    (off : Fin 2 → Nat) (hoff : off = ![r.val, 0])
    (hs : (⟨2, ![R, D]⟩ : Shape).Slices off ⟨2, ![1, D]⟩)
    (hb1 : (⟨2, ![1, D]⟩ : Shape).ShapeCasts ⟨1, ![D]⟩)
    (hb2 : (⟨1, ![D]⟩ : Shape).BroadcastsInDim ⟨2, ![1, D]⟩ ![1])
    (hb3 : (⟨2, ![1, D]⟩ : Shape).BroadcastsInDim ⟨2, ![E, D]⟩ ![0, 1]) (e : Fin E) (j : Fin D) :
    broadcastInDim ⟨2, ![E, D]⟩ ![0, 1] hb3 (broadcastInDim ⟨2, ![1, D]⟩ ![1] hb2
        (shapeCast ⟨1, ![D]⟩ (extractStridedSlice ⟨2, ![1, D]⟩ off b hs) hb1)) (ix2 e j)
      = b (ix2 r j) := by
  have hj := j.isLt
  rw [broadcastInDim_apply _ hb3 _ (ix2 e j) (ix2 0 j) (fun a => by
    match a with
    | ⟨0, _⟩ => show (0 : Nat) = if (1 : Nat) = 1 then 0 else e.val; rw [if_pos rfl]
    | ⟨1, _⟩ => show j.val = if D = 1 then 0 else j.val; split <;> omega)]
  rw [broadcastInDim_apply _ hb2 _ (ix2 0 j) (ix1 j) (fun a => by
    match a with
    | ⟨0, _⟩ => show j.val = if D = 1 then 0 else j.val; split <;> omega)]
  rw [rowVec_apply]
  subst hoff
  refine extractStridedSlice_apply _ b hs (ix2 0 j) (ix2 r j) (fun a => ?_)
  match a with
  | ⟨0, _⟩ => show r.val = r.val + 0; rfl
  | ⟨1, _⟩ => show j.val = 0 + j.val; omega

/-- The host's add-reduction of an [A,K] matrix over axis 1, at p: the initial value plus the row's K entries. -/
theorem hostRowSum_apply {A K : Nat} (src : (⟨2, ![A, K]⟩ : Shape).Idx → EReal) (init : EReal)
    (hred : (⟨2, ![A, K]⟩ : Shape).ReducesTo [1] ⟨1, ![A]⟩) (hr : (⟨2, ![A, K]⟩ : Shape).Reduces [1] ⟨1, ![A]⟩)
    (p : Fin A) :
    Ideal.hostReduceAdd hred src init (ix1 p) = init + ∑ k : Fin K, src (ix2 p k) := by
  rw [Ideal.hostReduceAdd_single hred hr]
  refine congrArg (init + ·) (Finset.sum_congr rfl fun k _ => congrArg src ?_)
  funext a
  match a with
  | ⟨0, _⟩ => rfl
  | ⟨1, _⟩ => rfl

/-- The whole-array spelling at edge e for slab and bias row r: the score of rows e of the two arrays. -/
theorem host_apply {E D R : Nat}
    (gu gi : FVec Ideal ⟨2, ![E, D]⟩ .f32) (W : FVec Ideal ⟨3, ![R, D, D]⟩ .f32) (b : FVec Ideal ⟨2, ![R, D]⟩ .f32)
    (r : Fin R) (offW : Fin 3 → Nat) (hoffW : offW = ![r.val, 0, 0]) (offb : Fin 2 → Nat) (hoffb : offb = ![r.val, 0])
    (hsW : (⟨3, ![R, D, D]⟩ : Shape).Slices offW ⟨3, ![1, D, D]⟩)
    (hw : (⟨3, ![1, D, D]⟩ : Shape).ShapeCasts ⟨2, ![D, D]⟩)
    (ht : (⟨2, ![D, D]⟩ : Shape).Transposes [1, 0] ⟨2, ![D, D]⟩)
    (hsb : (⟨2, ![R, D]⟩ : Shape).Slices offb ⟨2, ![1, D]⟩)
    (hb1 : (⟨2, ![1, D]⟩ : Shape).ShapeCasts ⟨1, ![D]⟩)
    (hb2 : (⟨1, ![D]⟩ : Shape).BroadcastsInDim ⟨2, ![1, D]⟩ ![1])
    (hb3 : (⟨2, ![1, D]⟩ : Shape).BroadcastsInDim ⟨2, ![E, D]⟩ ![0, 1])
    (hred : (⟨2, ![E, D]⟩ : Shape).ReducesTo [1] ⟨1, ![E]⟩) (hr : (⟨2, ![E, D]⟩ : Shape).Reduces [1] ⟨1, ![E]⟩)
    (hu : 0 < (⟨0, ![]⟩ : Shape).numel) (e : Fin E) :
    Host.reduceAdd
        (mulf (addf (Host.dotGeneral (DotDims.plain E D D) none gu
                  (transpose ⟨2, ![D, D]⟩ [1, 0]
                    (shapeCast ⟨2, ![D, D]⟩ (extractStridedSlice ⟨3, ![1, D, D]⟩ offW W hsW) hw) ht))
                (broadcastInDim ⟨2, ![E, D]⟩ ![0, 1] hb3 (broadcastInDim ⟨2, ![1, D]⟩ ![1] hb2
                  (shapeCast ⟨1, ![D]⟩ (extractStridedSlice ⟨2, ![1, D]⟩ offb b hsb) hb1)))) gi)
        (constant (F := Ideal) ⟨0, ![]⟩ .f32 0x00000000#32) hred hu (ix1 e)
      = score (fun k => gu (ix2 e k)) (fun j => gi (ix2 e j)) (fun j k => W (ix3 r j k)) (fun j => b (ix2 r j)) := by
  simp only [Host.reduceAdd, Ideal.hostReduceAdd_def]
  rw [hostRowSum_apply _ _ hred hr e, constant_apply, Ideal.ofBits_zero_f32, zero_add]
  unfold score
  refine Finset.sum_congr rfl fun j _ => ?_
  rw [mulf_apply, addf_apply, sliceRowBcast_apply b r offb hoffb]
  refine congrArg (fun s => (s + b (ix2 r j)) * gi (ix2 e j)) ?_
  refine (Cert.Lib.Matmul.dotGeneral_apply none .single gu _ e j).trans (Finset.sum_congr rfl fun k _ => ?_)
  exact congrArg (gu (ix2 e k) * ·) (sliceSlabT_apply (α := EReal) W r offW hoffW hsW hw ht k j)

end Cert.Lib.BilinearScore

end
-- ==== Proof.KernelBlock.lean ====
/-
  What the kernel's body leaves in its output block. One grid point holds 3200 edges: the two blocks of gathered
  feature rows x0, x1 (3200 rows of 64), and the whole weight x2 (5 slabs of 64 x 64) and bias x3 (5 rows of 64).
  For each relation r the body multiplies the first block by the transposed slab r, adds bias row r, multiplies
  entrywise by the second block, sums along each row and stores the 3200 sums as row r of the [5, 3200] output block.
  So the block's entry (r, e) is the bilinear score of rows e of the two blocks under slab r and bias row r; the five
  stores tile the block, one row each.
-/
import proofs.«164486_j80315888435313_1_alg».proof.Proof.Gen.KernelIdeal.Frame
import proofs.«164486_j80315888435313_1_alg».proof.Proof.LibBilinearScore
import Idealize.ShloMosaic.Lib.Pipeline.Value
import Idealize.ShloMosaic.Lib.ValueIdx

set_option maxRecDepth 16384

noncomputable section

namespace Cert.KernelIdeal.Scores

open Cert.KernelIdeal Cert.KernelIdeal.Gen Idealize.ShloMosaic Idealize.ShloMosaic.TcCoe Idealize.ShloMosaic.ValueIdx
open Cert.Lib.BilinearScore

/-- The score of edge e of the block under relation r. -/
def entry (x0 x1 : Vec Ideal S3200x64 .bf16) (x2 : Vec Ideal S5x64x64 .f32) (x3 : Vec Ideal S5x64 .f32)
    (r : Fin 5) (e : Fin 3200) : EReal :=
  score (fun k => x0 (ix2 e k)) (fun j => x1 (ix2 e j)) (fun j k => x2 (ix3 r j k)) (fun j => x3 (ix2 r j))

/-- The [5, 3200] table of scores of one block of edges. -/
def blockScores (x0 x1 : Vec Ideal S3200x64 .bf16) (x2 : Vec Ideal S5x64x64 .f32) (x3 : Vec Ideal S5x64 .f32) :
    Vec Ideal S5x3200 .f32 :=
  fun y => entry x0 x1 x2 x3 (y 0) (y 1)

theorem hz2 : (![0, 0] : Fin 2 → Nat) = fun _ => 0 := funext fun a => by fin_cases a <;> rfl

/-- Slab r of the weight, loaded as a [1,64,64] vector, at (0, j, k) is the weight at (r, j, k). -/
theorem ldSlab (x2 : Vec Ideal S5x64x64 .f32) (r : Fin 5) (inb) (j k : Fin 64) :
    View.ld x2 (Rect.unit (s := S5x64x64) ![r.val, 0, 0] S1x64x64.size inb) (ix3 0 j k) = x2 (ix3 r j k) :=
  congrArg x2 (funext fun a => Fin.ext (by
    match a with
    | ⟨0, _⟩ => show r.val + 1 * 0 = r.val; omega
    | ⟨1, _⟩ => show 0 + 1 * j.val = j.val; omega
    | ⟨2, _⟩ => show 0 + 1 * k.val = k.val; omega))

/-- Row r of the bias, loaded as a [1,64] vector, at (0, j) is the bias at (r, j). -/
theorem ldRow (x3 : Vec Ideal S5x64 .f32) (r : Fin 5) (inb) (j : Fin 64) :
    View.ld x3 (Rect.unit (s := S5x64) ![r.val, 0] S1x64.size inb) (ix2 0 j) = x3 (ix2 r j) :=
  congrArg x3 (funext fun a => Fin.ext (by
    match a with
    | ⟨0, _⟩ => show r.val + 1 * 0 = r.val; omega
    | ⟨1, _⟩ => show 0 + 1 * j.val = j.val; omega))

/-- ONE RELATION'S ROW: the body's chain of operations on the two blocks, slab r and bias row r (both loaded through
    their one-slab rectangles), read at (0, e), is the score of edge e under relation r. The blocks pass through an
    identity recast, the second also through the widening, which is the identity at the ideal values. -/
theorem row_of (x0 x1 : FVec Ideal S3200x64 .bf16) (x2 : Vec Ideal S5x64x64 .f32) (x3 : Vec Ideal S5x64 .f32)
    (r : Fin 5) (inbW) (inbB) (c0 : S3200x64.ShapeCasts S3200x64) (hx : FTy.bf16.bits < FTy.f32.bits)
    (hw : S1x64x64.ShapeCasts S64x64) (hlt : FTy.bf16.bits < FTy.f32.bits) (ht : S64x64.Transposes [1, 0] S64x64)
    (hb1 : S1x64.ShapeCasts S64) (hb2 : S64.ShapeCasts S1x64) (hb3 : S1x64.Broadcasts S3200x64)
    (hr : S3200x64.Reduces [1] S3200) (hφ : FKind.Formats .f32)
    (hacc : (0x00000000#32 : BitVec FTy.f32.bits) = FKind.add.neutral .f32 hφ) (ho : S3200.ShapeCasts S1x3200)
    (z : Fin 1) (e : Fin 3200) :
    shapeCast S1x3200
        (multiReduction (F := Ideal) .add [1] S3200
          (mulf (addf (matmul (DotDims.plain 3200 64 64) none (shapeCast S3200x64 x0 c0)
                    (transpose S64x64 [1, 0] (truncf .bf16 (shapeCast S64x64
                      (View.ld x2 (Rect.unit (s := S5x64x64) ![r.val, 0, 0] S1x64x64.size inbW)) hw) hlt) ht)
                    (constant S3200x64 .f32 0x00000000#32))
                  (broadcastTo S3200x64 (shapeCast S1x64 (shapeCast S64
                      (View.ld x3 (Rect.unit (s := S5x64) ![r.val, 0] S1x64.size inbB)) hb1) hb2) hb3))
            (extf .f32 (shapeCast S3200x64 x1 c0) hx))
          0x00000000#32 hr hφ hacc) ho (ix2 z e)
      = entry x0 x1 x2 x3 r e := by
  refine (block_apply (E := 3200) (D := 64) (shapeCast S3200x64 x0 c0) (extf .f32 (shapeCast S3200x64 x1 c0) hx)
    (View.ld x2 (Rect.unit (s := S5x64x64) ![r.val, 0, 0] S1x64x64.size inbW))
    (View.ld x3 (Rect.unit (s := S5x64) ![r.val, 0] S1x64.size inbB)) hw hlt ht hb1 hb2 hb3 hr hφ hacc ho z e).trans ?_
  rw [shapeCast_self x0, shapeCast_self x1]
  unfold entry
  simp only [ldSlab x2 r inbW, ldRow x3 r inbB, extf_apply]

/-- The store of relation 0: its payload at (0, e) is the score of edge e under relation 0. -/
theorem row0 (x0 x1 : Vec Ideal S3200x64 .bf16) (x2 : Vec Ideal S5x64x64 .f32) (x3 : Vec Ideal S5x64 .f32)
    (z : Fin 1) (e : Fin 3200) :
    k0_pay4 (F := Ideal) (View.ld x0 r0_0) (View.ld x1 r0_0) (View.ld x2 r0_1) (View.ld x3 r0_2) (ix2 z e)
      = entry x0 x1 x2 x3 0 e := by
  simp only [View.ld_unit_zero (S := S3200x64) hz2]
  exact row_of x0 x1 x2 x3 0 _ _ _ _ _ _ _ _ _ _ _ _ _ _ z e

/-- The store of relation 1. -/
theorem row1 (x0 x1 : Vec Ideal S3200x64 .bf16) (x2 : Vec Ideal S5x64x64 .f32) (x3 : Vec Ideal S5x64 .f32)
    (z : Fin 1) (e : Fin 3200) :
    k0_pay5 (F := Ideal) (View.ld x0 r0_0) (View.ld x1 r0_0) (View.ld x2 r0_4) (View.ld x3 r0_5) (ix2 z e)
      = entry x0 x1 x2 x3 1 e := by
  simp only [View.ld_unit_zero (S := S3200x64) hz2]
  exact row_of x0 x1 x2 x3 1 _ _ _ _ _ _ _ _ _ _ _ _ _ _ z e

/-- The store of relation 2 (the blocks reach it already recast and widened). -/
theorem row2 (x0 x1 : Vec Ideal S3200x64 .bf16) (x2 : Vec Ideal S5x64x64 .f32) (x3 : Vec Ideal S5x64 .f32)
    (z : Fin 1) (e : Fin 3200) :
    k0_pay6 (F := Ideal) (k0_pay2 (View.ld x0 r0_0)) (k0_pay3 (View.ld x1 r0_0)) (View.ld x2 r0_7) (View.ld x3 r0_8) (ix2 z e)
      = entry x0 x1 x2 x3 2 e := by
  simp only [View.ld_unit_zero (S := S3200x64) hz2]
  exact row_of x0 x1 x2 x3 2 _ _ _ _ _ _ _ _ _ _ _ _ _ _ z e

/-- The store of relation 3. -/
theorem row3 (x0 x1 : Vec Ideal S3200x64 .bf16) (x2 : Vec Ideal S5x64x64 .f32) (x3 : Vec Ideal S5x64 .f32)
    (z : Fin 1) (e : Fin 3200) :
    k0_pay7 (F := Ideal) (k0_pay2 (View.ld x0 r0_0)) (k0_pay3 (View.ld x1 r0_0)) (View.ld x2 r0_10) (View.ld x3 r0_11) (ix2 z e)
      = entry x0 x1 x2 x3 3 e := by
  simp only [View.ld_unit_zero (S := S3200x64) hz2]
  exact row_of x0 x1 x2 x3 3 _ _ _ _ _ _ _ _ _ _ _ _ _ _ z e

/-- The store of relation 4 (its product with the slab is made one statement earlier). -/
theorem row4 (x0 x1 : Vec Ideal S3200x64 .bf16) (x2 : Vec Ideal S5x64x64 .f32) (x3 : Vec Ideal S5x64 .f32)
    (z : Fin 1) (e : Fin 3200) :
    k0_pay1 (F := Ideal) (k0_pay3 (View.ld x1 r0_0)) (k0_pay8 (k0_pay2 (View.ld x0 r0_0)) (View.ld x2 r0_13)) (View.ld x3 r0_14) (ix2 z e)
      = entry x0 x1 x2 x3 4 e := by
  simp only [View.ld_unit_zero (S := S3200x64) hz2]
  exact row_of x0 x1 x2 x3 4 _ _ _ _ _ _ _ _ _ _ _ _ _ _ z e

/-- An index of a one-row piece placed at row r of the block (offsets (r, 0)) is (r, its column). -/
theorem entry_emb (x0 x1 : Vec Ideal S3200x64 .bf16) (x2 : Vec Ideal S5x64x64 .f32) (x3 : Vec Ideal S5x64 .f32)
    (r : Fin 5) (off : Fin 2 → Nat) (inb : ∀ a, off a + S1x3200.size a ≤ S5x3200.size a)
    (h0 : off 0 = r.val) (h1 : off 1 = 0) (z : Fin 1) (e : Fin 3200) :
    entry x0 x1 x2 x3 r e
      = blockScores x0 x1 x2 x3 ((Rect.unit (s := S5x3200) off S1x3200.size inb).emb (ix2 z e)) := by
  have hz := z.isLt
  show entry x0 x1 x2 x3 r e = entry x0 x1 x2 x3 _ _
  congr 1
  · exact Fin.ext (by show r.val = off 0 + 1 * z.val; omega)
  · exact Fin.ext (by show e.val = off 1 + 1 * e.val; omega)

/-- THE BLOCK the body leaves: its five row stores tile the [5, 3200] buffer, and store r holds the scores of
    relation r, so the buffer is the table of scores. -/
theorem out_eq (x0 x1 : Vec Ideal S3200x64 .bf16) (x2 : Vec Ideal S5x64x64 .f32) (x3 : Vec Ideal S5x64 .f32) :
    out0_4 x0 x1 x2 x3 = blockScores x0 x1 x2 x3 := by
  funext y
  unfold out0_4
  refine View.canon_apply_of_pieces (blockScores x0 x1 x2 x3) _ ?_ y (cover0_4 _ _ _ _ _ y)
  intro p hp x
  simp only [List.mem_cons, List.mem_nil_iff, or_false] at hp
  rcases hp with rfl | rfl | rfl | rfl | rfl
  · obtain ⟨z, e, rfl⟩ : ∃ (z : Fin 1) (e : Fin 3200), x = ix2 z e := ⟨x 0, x 1, eq_ix2 x⟩
    exact (row4 x0 x1 x2 x3 z e).trans (entry_emb x0 x1 x2 x3 4 _ (by decide) rfl rfl z e)
  · obtain ⟨z, e, rfl⟩ : ∃ (z : Fin 1) (e : Fin 3200), x = ix2 z e := ⟨x 0, x 1, eq_ix2 x⟩
    exact (row3 x0 x1 x2 x3 z e).trans (entry_emb x0 x1 x2 x3 3 _ (by decide) rfl rfl z e)
  · obtain ⟨z, e, rfl⟩ : ∃ (z : Fin 1) (e : Fin 3200), x = ix2 z e := ⟨x 0, x 1, eq_ix2 x⟩
    exact (row2 x0 x1 x2 x3 z e).trans (entry_emb x0 x1 x2 x3 2 _ (by decide) rfl rfl z e)
  · obtain ⟨z, e, rfl⟩ : ∃ (z : Fin 1) (e : Fin 3200), x = ix2 z e := ⟨x 0, x 1, eq_ix2 x⟩
    exact (row1 x0 x1 x2 x3 z e).trans (entry_emb x0 x1 x2 x3 1 _ (by decide) rfl rfl z e)
  · obtain ⟨z, e, rfl⟩ : ∃ (z : Fin 1) (e : Fin 3200), x = ix2 z e := ⟨x 0, x 1, eq_ix2 x⟩
    exact (row0 x0 x1 x2 x3 z e).trans (entry_emb x0 x1 x2 x3 0 _ (by decide) rfl rfl z e)

end Cert.KernelIdeal.Scores

end
-- ==== Proof.KernelArray.lean ====
/-
  From the blocks to the array. Grid point t handles edges 3200 t … 3200 t + 3199: its two input blocks are those rows
  of the two gathered arrays, the weight and the bias come whole at every point, and its output block is columns
  3200 t … 3200 t + 3199 of the [5, 2000000] result. So what point t writes back is that block of ONE table — entry
  (r, E) the score of gathered rows E under relation r — and, the 625 blocks tiling the columns, the array ends as the table.
-/
import proofs.«164486_j80315888435313_1_alg».proof.Proof.KernelBlock

set_option maxRecDepth 16384

noncomputable section

namespace Cert.KernelIdeal.Scores

open Cert.KernelIdeal Cert.KernelIdeal.Gen Idealize.ShloMosaic Idealize.ShloMosaic.TcCoe Idealize.ShloMosaic.ValueIdx
open Idealize.SL.Sem
open Idealize.ShloMosaic.Pipeline (Dat)
open Cert.Lib.BilinearScore

variable (m : (ℓ : Loc nD τ sig) → Buf (Elt Ideal) ℓ)

/-- The four arrays the region reads, as it finds them, at their literal types. -/
abbrev guArr (c : Dev nD) : Vec Ideal S2000000x64 .bf16 := V m c main_v8
abbrev giArr (c : Dev nD) : Vec Ideal S2000000x64 .bf16 := V m c main_v15
abbrev wArr (c : Dev nD) : Vec Ideal S5x64x64 .f32 := V m c main_arg4
abbrev bArr (c : Dev nD) : Vec Ideal S5x64 .f32 := V m c main_arg5

/-- The [5, 2000000] table of scores: entry (r, E) is the score of rows E of the two gathered arrays under relation r. -/
def table (gu gi : Vec Ideal S2000000x64 .bf16) (w : Vec Ideal S5x64x64 .f32) (b : Vec Ideal S5x64 .f32) :
    Vec Ideal S5x2000000 .f32 :=
  fun i => score (fun k => gu (ix2 (i 1) k)) (fun j => gi (ix2 (i 1) j)) (fun j k => w (ix3 (i 0) j k)) (fun j => b (ix2 (i 0) j))

/-- The printed index maps, decided over the 625 points: the two row windows and the output's column axis move with the
    point, everything else stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- Row e of point t's first input block is row 3200 t + e of the first gathered array. -/
theorem blk0 (c : Dev nD) (t : Fin cfg0.N) (e : Fin 3200) (k : Fin 64) (E : Fin 2000000)
    (hE : E.val = t.val * 3200 + e.val) : iblk m c 0 t (ix2 e k) = guArr m c (ix2 E k) := by
  obtain ⟨a0, a1, -⟩ := idx_facts t
  show V m c main_v8 (((cfg0.win 0).blk t).view.emb (ix2 e k)) = V m c main_v8 (ix2 E k)
  refine congrArg (V m c main_v8) (funext fun a => Fin.ext ?_)
  match a with
  | ⟨0, _⟩ => show win0_0.index t (0 : Fin 2) * 3200 + 1 * e.val = E.val; omega
  | ⟨1, _⟩ => show win0_0.index t (1 : Fin 2) * 64 + 1 * k.val = k.val; omega

/-- Row e of point t's second input block is row 3200 t + e of the second gathered array. -/
theorem blk1 (c : Dev nD) (t : Fin cfg0.N) (e : Fin 3200) (k : Fin 64) (E : Fin 2000000)
    (hE : E.val = t.val * 3200 + e.val) : iblk m c 1 t (ix2 e k) = giArr m c (ix2 E k) := by
  obtain ⟨-, -, b0, b1, -⟩ := idx_facts t
  show V m c main_v15 (((cfg0.win 1).blk t).view.emb (ix2 e k)) = V m c main_v15 (ix2 E k)
  refine congrArg (V m c main_v15) (funext fun a => Fin.ext ?_)
  match a with
  | ⟨0, _⟩ => show win0_1.index t (0 : Fin 2) * 3200 + 1 * e.val = E.val; omega
  | ⟨1, _⟩ => show win0_1.index t (1 : Fin 2) * 64 + 1 * k.val = k.val; omega

/-- The weight's block is the whole weight at every point. -/
theorem blk2 (c : Dev nD) (t : Fin cfg0.N) (r R : Fin 5) (j k : Fin 64) (hR : R.val = r.val) :
    iblk m c 2 t (ix3 r j k) = wArr m c (ix3 R j k) := by
  obtain ⟨-, -, -, -, w0, w1, w2, -⟩ := idx_facts t
  show V m c main_arg4 (((cfg0.win 2).blk t).view.emb (ix3 r j k)) = V m c main_arg4 (ix3 R j k)
  refine congrArg (V m c main_arg4) (funext fun a => Fin.ext ?_)
  match a with
  | ⟨0, _⟩ => show win0_2.index t (0 : Fin 3) * 5 + 1 * r.val = R.val; omega
  | ⟨1, _⟩ => show win0_2.index t (1 : Fin 3) * 64 + 1 * j.val = j.val; omega
  | ⟨2, _⟩ => show win0_2.index t (2 : Fin 3) * 64 + 1 * k.val = k.val; omega

/-- The bias's block is the whole bias at every point. -/
theorem blk3 (c : Dev nD) (t : Fin cfg0.N) (r R : Fin 5) (j : Fin 64) (hR : R.val = r.val) :
    iblk m c 3 t (ix2 r j) = bArr m c (ix2 R j) := by
  obtain ⟨-, -, -, -, -, -, -, c0, c1, -⟩ := idx_facts t
  show V m c main_arg5 (((cfg0.win 3).blk t).view.emb (ix2 r j)) = V m c main_arg5 (ix2 R j)
  refine congrArg (V m c main_arg5) (funext fun a => Fin.ext ?_)
  match a with
  | ⟨0, _⟩ => show win0_3.index t (0 : Fin 2) * 5 + 1 * r.val = R.val; omega
  | ⟨1, _⟩ => show win0_3.index t (1 : Fin 2) * 64 + 1 * j.val = j.val; omega

/-- WHAT POINT t WRITES BACK is block t of the table of the arrays as the region finds them. -/
theorem flushed_eq (c : Dev nD) (t : Fin cfg0.N) :
    (dats m 0 c).flushed 4 t
      = ((cfg0.win 4).blk t).view.read (Elt Ideal) (table (guArr m c) (giArr m c) (wArr m c) (bArr m c)) := by
  show (cfg0.win 4).cut (grid0.coords t) ((dats m 0 c).after 4 t) = _
  rw [after0_4]
  obtain ⟨-, -, -, -, -, -, -, -, -, o0, o1⟩ := idx_facts t
  funext y
  refine (congrFun (out_eq (iblk m c 0 t) (iblk m c 1 t) (iblk m c 2 t) (iblk m c 3 t)) y).trans ?_
  show score (fun k => iblk m c 0 t (ix2 (y 1) k)) (fun j => iblk m c 1 t (ix2 (y 1) j))
      (fun j k => iblk m c 2 t (ix3 (y 0) j k)) (fun j => iblk m c 3 t (ix2 (y 0) j))
    = table (guArr m c) (giArr m c) (wArr m c) (bArr m c) (((cfg0.win 4).blk t).view.emb y)
  unfold table
  have h1 : ((((cfg0.win 4).blk t).view.emb y) 1).val = t.val * 3200 + (y 1).val := by
    show win0_4.index t (1 : Fin 2) * 3200 + 1 * (y 1).val = _; omega
  have h0 : ((((cfg0.win 4).blk t).view.emb y) 0).val = (y 0).val := by
    show win0_4.index t (0 : Fin 2) * 5 + 1 * (y 0).val = _; omega
  exact score_congr (fun k => blk0 m c t (y 1) k _ h1) (fun j => blk1 m c t (y 1) j _ h1)
    (fun j k => blk2 m c t (y 0) _ j k h0) (fun j => blk3 m c t (y 0) _ j h0)

/-- An index of the result array is in point t's block iff each coordinate is in the block's range on its axis. -/
theorem mem_blk (t : Fin cfg0.N) (i : S5x2000000.Idx) :
    i ∈ ((cfg0.win 4).blk t).view.set ↔ ∀ a : Fin 2, win0_4.index t a * S5x3200.size a ≤ (i a).val
      ∧ (i a).val < win0_4.index t a * S5x3200.size a + S5x3200.size a := by
  show i ∈ ((View.whole main_v16).slice (win0_4.rect t)).set ↔ _
  rw [View.set_slice_whole, Rect.mem_set_unit]
  exact Iff.rfl

/-- Every column E lies in the block of point E / 3200. -/
theorem cover (i : S5x2000000.Idx) :
    ∃ t : Fin cfg0.N, (cfg0.win 4).flush t = true ∧ i ∈ ((cfg0.win 4).blk t).view.set := by
  have h0 : (i 0).val < 5 := (i 0).isLt
  have h1 : (i 1).val < 2000000 := (i 1).isLt
  have hN : cfg0.N = 625 := N_0
  obtain ⟨t, ht⟩ : ∃ t : Fin cfg0.N, t.val = (i 1).val / 3200 := ⟨⟨(i 1).val / 3200, by omega⟩, rfl⟩
  obtain ⟨-, -, -, -, -, -, -, -, -, o0, o1⟩ := idx_facts t
  refine ⟨t, flush0_4 t, ?_⟩
  rw [mem_blk]
  intro a
  match a with
  | ⟨0, _⟩ =>
    show win0_4.index t (0 : Fin 2) * 5 ≤ (i 0).val ∧ (i 0).val < win0_4.index t (0 : Fin 2) * 5 + 5
    omega
  | ⟨1, _⟩ =>
    show win0_4.index t (1 : Fin 2) * 3200 ≤ (i 1).val ∧ (i 1).val < win0_4.index t (1 : Fin 2) * 3200 + 3200
    omega

/-- THE ARRAY after the region: the table of scores of the arrays as the region finds them. -/
theorem final (c : Dev nD) :
    (dats m 0 c).arrAt 4 cfg0.N = table (guArr m c) (giArr m c) (wArr m c) (bArr m c) :=
  (dats m 0 c).arrAt_eq_of_cover 4 _ (fun t _ => flushed_eq m c t) (cover)

end Cert.KernelIdeal.Scores

end
-- ==== Proof.KernelRun.lean ====
/-
  The kernel program's run, read as values. Before the region the host narrows the two feature tables (the identity
  at the ideal values), turns a negative index into one counted from the end, and gathers one table row per edge;
  the region leaves the [5, 2000000] table of scores of those gathered rows; after it the host transposes the table.
  So @main's result at (E, r) is the score of gathered rows E under relation r, a function of the six argument arrays.
-/
import proofs.«164486_j80315888435313_1_alg».proof.Proof.KernelArray
import Idealize.ShloMosaic.Lib.StableHlo.Run

set_option maxRecDepth 16384

noncomputable section

namespace Cert.KernelIdeal.Scores

open Cert.KernelIdeal Cert.KernelIdeal.Gen Idealize.ShloMosaic Idealize.ShloMosaic.TcCoe Idealize.ShloMosaic.ValueIdx
open Idealize.SL.Sem Idealize.ShloMosaic.StableHlo
open Cert.Lib.BilinearScore

/-- The first table's rows per edge: a negative index has the table's length added, then row index[e] is gathered
    (out of the narrowed table). -/
def gatherU (x0 : FVec Ideal S100000x64 .f32) (x2 : IVec S2000000 32) : FVec Ideal S2000000x64 .bf16 :=
  Host.gather gather_S100000x64_S2000000x1_S2000000x64_1_0_n_n_0_1_164 (truncf (F := Ideal) .bf16 x0 bitsLt_bf16_f32)
    (broadcastInDim S2000000x1 ![0] bcast_S2000000_S2000000x1_0
      (select (cmpi .slt x2 (broadcastInDim S2000000 ![] bcast_S_S2000000 (constantI S_ 32 0#32)))
        (addi x2 (broadcastInDim S2000000 ![] bcast_S_S2000000 (constantI S_ 32 100000#32))) x2))

/-- The second table's rows per edge, the same way. -/
def gatherI (x1 : FVec Ideal S50000x64 .f32) (x3 : IVec S2000000 32) : FVec Ideal S2000000x64 .bf16 :=
  Host.gather gather_S50000x64_S2000000x1_S2000000x64_1_0_n_n_0_1_164 (truncf (F := Ideal) .bf16 x1 bitsLt_bf16_f32)
    (broadcastInDim S2000000x1 ![0] bcast_S2000000_S2000000x1_0
      (select (cmpi .slt x3 (broadcastInDim S2000000 ![] bcast_S_S2000000 (constantI S_ 32 0#32)))
        (addi x3 (broadcastInDim S2000000 ![] bcast_S_S2000000 (constantI S_ 32 50000#32))) x3))

/-- @main's result as a function of its six arguments: entry (E, r) is entry (r, E) of the table of scores of the
    gathered rows. -/
def resultOf (x0 : FVec Ideal S100000x64 .f32) (x1 : FVec Ideal S50000x64 .f32) (x2 x3 : IVec S2000000 32)
    (x4 : Vec Ideal S5x64x64 .f32) (x5 : Vec Ideal S5x64 .f32) : Vec Ideal S2000000x5 .f32 :=
  fun i => table (gatherU x0 x2) (gatherI x1 x3) x4 x5 (ix2 (i 1) (i 0))

variable (m : (ℓ : Loc nD τ sig) → Buf (Elt Ideal) ℓ) (ρ : Dev nD → PrngReg)

/-- What the host lines before the region leave in the first gathered array. -/
theorem gu_eq (c : Dev nD) :
    guArr m c = gatherU (m ((c : Thread nD τ).loc main_arg0)) (m ((c : Thread nD τ).loc main_arg2)) := by
  show StableHlo.after hostOps0 (fun b => m (c, b)) (Proc.devRef .tc main_v8) = _
  after_results
  rfl

/-- What they leave in the second. -/
theorem gi_eq (c : Dev nD) :
    giArr m c = gatherI (m ((c : Thread nD τ).loc main_arg1)) (m ((c : Thread nD τ).loc main_arg3)) := by
  show StableHlo.after hostOps0 (fun b => m (c, b)) (Proc.devRef .tc main_v15) = _
  after_results
  rfl

/-- The transposed table: the host line after the region reads the region's array, which is the table. -/
theorem tail_eq (c : Dev nD) :
    Pipeline.afterTail₀ cfgs (dats m) 0 (V0 m) [hostOps1] c main_v17
      = resultOf (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  unfold Pipeline.afterTail₀
  show StableHlo.after hostOps1 _ (Proc.devRef .tc main_v17) = _
  after_results
  have harr : Pipeline.withArrays (cfgs 0).spec c (V0 m c) (fun w => (dats m 0 c).arrAt w (cfgs 0).N)
      (Proc.tc.devRef main_v16) = table (guArr m c) (giArr m c) (wArr m c) (bArr m c) :=
    (Pipeline.withArrays_arr spec0 launch0.win.arr_inj c _ _ 4).trans (final m c)
  rw [harr, gu_eq, gi_eq, show wArr m c = m ((c : Thread nD τ).loc main_arg4) from V_main_arg4 m c,
    show bArr m c = m ((c : Thread nD τ).loc main_arg5) from V_main_arg5 m c]
  funext i
  exact transpose_apply [1, 0] _ transposes_S5x2000000_S2000000x5_1_0 i (ix2 (i 1) (i 0)) (fun b => by
    match b with
    | ⟨0, _⟩ => rfl
    | ⟨1, _⟩ => rfl)

/-- THE RUN of the idealized kernel program: it terminates with its result at `resultOf` of the arguments, the
    arguments unchanged (the frame run's post, read: the result through the host tail, an argument a window stages
    through its array, the others through the host lines, none of which writes them). -/
theorem run : θ_run defs (onTc (τ := τ) (main (F := Ideal))) ⟨m, fun _ => 0, ρ⟩ fun r => ∀ c : Dev nD,
    r.2.mem ((c.tc : Thread nD τ).loc main_v17)
        = resultOf (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v17 (Pipeline.mem_restRefs_of main_v17 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c)))⟩)
    (run_main m ρ)

end Cert.KernelIdeal.Scores

end
-- ==== Proof.RefScores.lean ====
/-
  The reference's result read at an entry. The reference gathers the two feature arrays whole, and for each relation r
  cuts slab r and bias row r out of the weight and the bias, multiplies the gathered first array by the transposed slab,
  adds the bias row, multiplies entrywise by the gathered second array and sums along each row; the five columns so
  made are joined side by side. So its entry (E, r) is the score of gathered rows E under relation r.
-/
import proofs.«164486_j80315888435313_1_alg».proof.Proof.Gen.ReferenceIdeal.Read
import proofs.«164486_j80315888435313_1_alg».proof.Proof.LibBilinearScore

set_option maxRecDepth 16384

noncomputable section

namespace Cert.ReferenceIdeal.Scores

open Cert.ReferenceIdeal Cert.ReferenceIdeal.Gen Cert.ReferenceIdeal.Read Idealize.ShloMosaic Idealize.ShloMosaic.TcCoe Idealize.ShloMosaic.ValueIdx
open Cert.Lib.BilinearScore

/-- The side condition of reading a joined column: off the joined axis the row coordinate is shared. -/
theorem rows_shared {N : Nat} (p : Fin N) (k : Fin 5) :
    ∀ b : Fin (⟨2, ![N, 1]⟩ : Shape).rank, b.cast (rfl : (⟨2, ![N, 1]⟩ : Shape).rank = (⟨2, ![N, 5]⟩ : Shape).rank)
      ≠ (1 : Fin (⟨2, ![N, 5]⟩ : Shape).rank) → ((ix2 p (0 : Fin 1)) b).val = ((ix2 p k) (b.cast rfl)).val := fun b =>
  match b with
  | ⟨0, _⟩ => fun _ => rfl
  | ⟨1, _⟩ => fun hb => absurd rfl hb

section Join
variable {α : Type} {N : Nat} (c0 c1 c2 c3 c4 : (⟨2, ![N, 1]⟩ : Shape).Idx → α)
  (h : Shape.Concatenates [⟨2, ![N, 1]⟩, ⟨2, ![N, 1]⟩, ⟨2, ![N, 1]⟩, ⟨2, ![N, 1]⟩, ⟨2, ![N, 1]⟩] ⟨2, ![N, 5]⟩ 1)
  (p : Fin N)

/-- Five [N,1] columns joined along axis 1: column 0 of the join is the first piece. -/
theorem join5_at0 : concatenate ⟨2, ![N, 5]⟩ 1 [⟨⟨2, ![N, 1]⟩, c0⟩, ⟨⟨2, ![N, 1]⟩, c1⟩, ⟨⟨2, ![N, 1]⟩, c2⟩,
    ⟨⟨2, ![N, 1]⟩, c3⟩, ⟨⟨2, ![N, 1]⟩, c4⟩] h (ix2 p 0) = c0 (ix2 p 0) :=
  concatenate_apply_piece (t := ⟨2, ![N, 5]⟩) 1 [⟨⟨2, ![N, 1]⟩, c0⟩, ⟨⟨2, ![N, 1]⟩, c1⟩, ⟨⟨2, ![N, 1]⟩, c2⟩,
    ⟨⟨2, ![N, 1]⟩, c3⟩, ⟨⟨2, ![N, 1]⟩, c4⟩] h _ 0 (by show 0 < 5; omega) ⟨2, ![N, 1]⟩ c0 rfl rfl 0 rfl (ix2 p 0)
    (rows_shared p 0) rfl

/-- Column 1 is the second piece. -/
theorem join5_at1 : concatenate ⟨2, ![N, 5]⟩ 1 [⟨⟨2, ![N, 1]⟩, c0⟩, ⟨⟨2, ![N, 1]⟩, c1⟩, ⟨⟨2, ![N, 1]⟩, c2⟩,
    ⟨⟨2, ![N, 1]⟩, c3⟩, ⟨⟨2, ![N, 1]⟩, c4⟩] h (ix2 p 1) = c1 (ix2 p 0) :=
  concatenate_apply_piece (t := ⟨2, ![N, 5]⟩) 1 [⟨⟨2, ![N, 1]⟩, c0⟩, ⟨⟨2, ![N, 1]⟩, c1⟩, ⟨⟨2, ![N, 1]⟩, c2⟩,
    ⟨⟨2, ![N, 1]⟩, c3⟩, ⟨⟨2, ![N, 1]⟩, c4⟩] h _ 1 (by show 1 < 5; omega) ⟨2, ![N, 1]⟩ c1 rfl rfl 1 rfl (ix2 p 0)
    (rows_shared p 1) rfl

/-- Column 2 is the third piece. -/
theorem join5_at2 : concatenate ⟨2, ![N, 5]⟩ 1 [⟨⟨2, ![N, 1]⟩, c0⟩, ⟨⟨2, ![N, 1]⟩, c1⟩, ⟨⟨2, ![N, 1]⟩, c2⟩,
    ⟨⟨2, ![N, 1]⟩, c3⟩, ⟨⟨2, ![N, 1]⟩, c4⟩] h (ix2 p 2) = c2 (ix2 p 0) :=
  concatenate_apply_piece (t := ⟨2, ![N, 5]⟩) 1 [⟨⟨2, ![N, 1]⟩, c0⟩, ⟨⟨2, ![N, 1]⟩, c1⟩, ⟨⟨2, ![N, 1]⟩, c2⟩,
    ⟨⟨2, ![N, 1]⟩, c3⟩, ⟨⟨2, ![N, 1]⟩, c4⟩] h _ 2 (by show 2 < 5; omega) ⟨2, ![N, 1]⟩ c2 rfl rfl 2 rfl (ix2 p 0)
    (rows_shared p 2) rfl

/-- Column 3 is the fourth piece. -/
theorem join5_at3 : concatenate ⟨2, ![N, 5]⟩ 1 [⟨⟨2, ![N, 1]⟩, c0⟩, ⟨⟨2, ![N, 1]⟩, c1⟩, ⟨⟨2, ![N, 1]⟩, c2⟩,
    ⟨⟨2, ![N, 1]⟩, c3⟩, ⟨⟨2, ![N, 1]⟩, c4⟩] h (ix2 p 3) = c3 (ix2 p 0) :=
  concatenate_apply_piece (t := ⟨2, ![N, 5]⟩) 1 [⟨⟨2, ![N, 1]⟩, c0⟩, ⟨⟨2, ![N, 1]⟩, c1⟩, ⟨⟨2, ![N, 1]⟩, c2⟩,
    ⟨⟨2, ![N, 1]⟩, c3⟩, ⟨⟨2, ![N, 1]⟩, c4⟩] h _ 3 (by show 3 < 5; omega) ⟨2, ![N, 1]⟩ c3 rfl rfl 3 rfl (ix2 p 0)
    (rows_shared p 3) rfl

/-- Column 4 is the fifth piece. -/
theorem join5_at4 : concatenate ⟨2, ![N, 5]⟩ 1 [⟨⟨2, ![N, 1]⟩, c0⟩, ⟨⟨2, ![N, 1]⟩, c1⟩, ⟨⟨2, ![N, 1]⟩, c2⟩,
    ⟨⟨2, ![N, 1]⟩, c3⟩, ⟨⟨2, ![N, 1]⟩, c4⟩] h (ix2 p 4) = c4 (ix2 p 0) :=
  concatenate_apply_piece (t := ⟨2, ![N, 5]⟩) 1 [⟨⟨2, ![N, 1]⟩, c0⟩, ⟨⟨2, ![N, 1]⟩, c1⟩, ⟨⟨2, ![N, 1]⟩, c2⟩,
    ⟨⟨2, ![N, 1]⟩, c3⟩, ⟨⟨2, ![N, 1]⟩, c4⟩] h _ 4 (by show 4 < 5; omega) ⟨2, ![N, 1]⟩ c4 rfl rfl 4 rfl (ix2 p 0)
    (rows_shared p 4) rfl

end Join

variable (x0 : (⟨S100000x64, .f32⟩ : BufTy).Contents (Elt Ideal)) (x1 : (⟨S50000x64, .f32⟩ : BufTy).Contents (Elt Ideal))
  (x2 x3 : (⟨S2000000, .i32⟩ : BufTy).Contents (Elt Ideal)) (x4 : (⟨S5x64x64, .f32⟩ : BufTy).Contents (Elt Ideal))
  (x5 : (⟨S5x64, .f32⟩ : BufTy).Contents (Elt Ideal))

/-- The score of gathered rows E under relation r, of the reference's own gathered arrays. -/
def refScore (E : Fin 2000000) (r : Fin 5) : EReal :=
  score (fun k => val_main_v6 (F := Ideal) x0 x2 (ix2 E k)) (fun j => val_main_v13 (F := Ideal) x1 x3 (ix2 E j))
    (fun j k => x4 (ix3 r j k)) (fun j => x5 (ix2 r j))

/-- Column 0: the sums of relation 0. -/
theorem col0 (E : Fin 2000000) : val_main_v24 (F := Ideal) x0 x1 x2 x3 x4 x5 (ix1 E) = refScore x0 x1 x2 x3 x4 x5 E 0 := by
  unfold val_main_v24 val_main_v23 val_main_v22 val_main_v21 val_main_v20 val_main_v19 val_main_v18 val_main_v17
    val_main_v16 val_main_v15 val_main_v14 val_main_cst refScore
  exact host_apply (E := 2000000) (D := 64) (R := 5) (val_main_v6 (F := Ideal) x0 x2) (val_main_v13 (F := Ideal) x1 x3)
    x4 x5 0 ![0, 0, 0] rfl ![0, 0] rfl slices_S5x64x64_S1x64x64_0_0_0 shapeCasts_S1x64x64_S64x64
    transposes_S64x64_S64x64_1_0 slices_S5x64_S1x64_0_0 shapeCasts_S1x64_S64 bcast_S64_S1x64_1
    bcast_S1x64_S2000000x64_0_1 reducesTo_S2000000x64_S2000000_d1 (by decide) h_S_ E

/-- Column 1: the sums of relation 1. -/
theorem col1 (E : Fin 2000000) : val_main_v35 (F := Ideal) x0 x1 x2 x3 x4 x5 (ix1 E) = refScore x0 x1 x2 x3 x4 x5 E 1 := by
  unfold val_main_v35 val_main_v34 val_main_v33 val_main_v32 val_main_v31 val_main_v30 val_main_v29 val_main_v28
    val_main_v27 val_main_v26 val_main_v25 val_main_cst_3 refScore
  exact host_apply (E := 2000000) (D := 64) (R := 5) (val_main_v6 (F := Ideal) x0 x2) (val_main_v13 (F := Ideal) x1 x3)
    x4 x5 1 ![1, 0, 0] rfl ![1, 0] rfl slices_S5x64x64_S1x64x64_1_0_0 shapeCasts_S1x64x64_S64x64
    transposes_S64x64_S64x64_1_0 slices_S5x64_S1x64_1_0 shapeCasts_S1x64_S64 bcast_S64_S1x64_1
    bcast_S1x64_S2000000x64_0_1 reducesTo_S2000000x64_S2000000_d1 (by decide) h_S_ E

/-- Column 2: the sums of relation 2. -/
theorem col2 (E : Fin 2000000) : val_main_v46 (F := Ideal) x0 x1 x2 x3 x4 x5 (ix1 E) = refScore x0 x1 x2 x3 x4 x5 E 2 := by
  unfold val_main_v46 val_main_v45 val_main_v44 val_main_v43 val_main_v42 val_main_v41 val_main_v40 val_main_v39
    val_main_v38 val_main_v37 val_main_v36 val_main_cst_4 refScore
  exact host_apply (E := 2000000) (D := 64) (R := 5) (val_main_v6 (F := Ideal) x0 x2) (val_main_v13 (F := Ideal) x1 x3)
    x4 x5 2 ![2, 0, 0] rfl ![2, 0] rfl slices_S5x64x64_S1x64x64_2_0_0 shapeCasts_S1x64x64_S64x64
    transposes_S64x64_S64x64_1_0 slices_S5x64_S1x64_2_0 shapeCasts_S1x64_S64 bcast_S64_S1x64_1
    bcast_S1x64_S2000000x64_0_1 reducesTo_S2000000x64_S2000000_d1 (by decide) h_S_ E

/-- Column 3: the sums of relation 3. -/
theorem col3 (E : Fin 2000000) : val_main_v57 (F := Ideal) x0 x1 x2 x3 x4 x5 (ix1 E) = refScore x0 x1 x2 x3 x4 x5 E 3 := by
  unfold val_main_v57 val_main_v56 val_main_v55 val_main_v54 val_main_v53 val_main_v52 val_main_v51 val_main_v50
    val_main_v49 val_main_v48 val_main_v47 val_main_cst_5 refScore
  exact host_apply (E := 2000000) (D := 64) (R := 5) (val_main_v6 (F := Ideal) x0 x2) (val_main_v13 (F := Ideal) x1 x3)
    x4 x5 3 ![3, 0, 0] rfl ![3, 0] rfl slices_S5x64x64_S1x64x64_3_0_0 shapeCasts_S1x64x64_S64x64
    transposes_S64x64_S64x64_1_0 slices_S5x64_S1x64_3_0 shapeCasts_S1x64_S64 bcast_S64_S1x64_1
    bcast_S1x64_S2000000x64_0_1 reducesTo_S2000000x64_S2000000_d1 (by decide) h_S_ E

/-- Column 4: the sums of relation 4. -/
theorem col4 (E : Fin 2000000) : val_main_v68 (F := Ideal) x0 x1 x2 x3 x4 x5 (ix1 E) = refScore x0 x1 x2 x3 x4 x5 E 4 := by
  unfold val_main_v68 val_main_v67 val_main_v66 val_main_v65 val_main_v64 val_main_v63 val_main_v62 val_main_v61
    val_main_v60 val_main_v59 val_main_v58 val_main_cst_6 refScore
  exact host_apply (E := 2000000) (D := 64) (R := 5) (val_main_v6 (F := Ideal) x0 x2) (val_main_v13 (F := Ideal) x1 x3)
    x4 x5 4 ![4, 0, 0] rfl ![4, 0] rfl slices_S5x64x64_S1x64x64_4_0_0 shapeCasts_S1x64x64_S64x64
    transposes_S64x64_S64x64_1_0 slices_S5x64_S1x64_4_0 shapeCasts_S1x64_S64 bcast_S64_S1x64_1
    bcast_S1x64_S2000000x64_0_1 reducesTo_S2000000x64_S2000000_d1 (by decide) h_S_ E

/-- A sum vector viewed as a column: (E, 0) reads E. -/
theorem colIdx (E : Fin 2000000) (z : Fin 1) : idx_main_v69 (ix2 E z) = ix1 E :=
  funext fun a => by match a with | ⟨0, _⟩ => rfl

/-- Entry (E, 0): the first joined column, which is the sum vector of relation 0 viewed as a column. -/
theorem ref_at0 (E : Fin 2000000) :
    val_main_v74 (F := Ideal) x0 x1 x2 x3 x4 x5 (ix2 E 0) = refScore x0 x1 x2 x3 x4 x5 E 0 := by
  unfold val_main_v74
  refine (join5_at0 _ _ _ _ _ concatenates_S2000000x1_S2000000x1_S2000000x1_S2000000x1_S2000000x1_S2000000x5_d1 E).trans ?_
  refine (val_main_v69_apply x0 x1 x2 x3 x4 x5 (ix2 E 0)).trans ?_
  refine (congrArg (val_main_v24 (F := Ideal) x0 x1 x2 x3 x4 x5) (colIdx E 0)).trans ?_
  exact col0 x0 x1 x2 x3 x4 x5 E

/-- Entry (E, 1). -/
theorem ref_at1 (E : Fin 2000000) :
    val_main_v74 (F := Ideal) x0 x1 x2 x3 x4 x5 (ix2 E 1) = refScore x0 x1 x2 x3 x4 x5 E 1 := by
  unfold val_main_v74
  refine (join5_at1 _ _ _ _ _ concatenates_S2000000x1_S2000000x1_S2000000x1_S2000000x1_S2000000x1_S2000000x5_d1 E).trans ?_
  refine (val_main_v70_apply x0 x1 x2 x3 x4 x5 (ix2 E 0)).trans ?_
  refine (congrArg (val_main_v35 (F := Ideal) x0 x1 x2 x3 x4 x5) (colIdx E 0)).trans ?_
  exact col1 x0 x1 x2 x3 x4 x5 E

/-- Entry (E, 2). -/
theorem ref_at2 (E : Fin 2000000) :
    val_main_v74 (F := Ideal) x0 x1 x2 x3 x4 x5 (ix2 E 2) = refScore x0 x1 x2 x3 x4 x5 E 2 := by
  unfold val_main_v74
  refine (join5_at2 _ _ _ _ _ concatenates_S2000000x1_S2000000x1_S2000000x1_S2000000x1_S2000000x1_S2000000x5_d1 E).trans ?_
  refine (val_main_v71_apply x0 x1 x2 x3 x4 x5 (ix2 E 0)).trans ?_
  refine (congrArg (val_main_v46 (F := Ideal) x0 x1 x2 x3 x4 x5) (colIdx E 0)).trans ?_
  exact col2 x0 x1 x2 x3 x4 x5 E

/-- Entry (E, 3). -/
theorem ref_at3 (E : Fin 2000000) :
    val_main_v74 (F := Ideal) x0 x1 x2 x3 x4 x5 (ix2 E 3) = refScore x0 x1 x2 x3 x4 x5 E 3 := by
  unfold val_main_v74
  refine (join5_at3 _ _ _ _ _ concatenates_S2000000x1_S2000000x1_S2000000x1_S2000000x1_S2000000x1_S2000000x5_d1 E).trans ?_
  refine (val_main_v72_apply x0 x1 x2 x3 x4 x5 (ix2 E 0)).trans ?_
  refine (congrArg (val_main_v57 (F := Ideal) x0 x1 x2 x3 x4 x5) (colIdx E 0)).trans ?_
  exact col3 x0 x1 x2 x3 x4 x5 E

/-- Entry (E, 4). -/
theorem ref_at4 (E : Fin 2000000) :
    val_main_v74 (F := Ideal) x0 x1 x2 x3 x4 x5 (ix2 E 4) = refScore x0 x1 x2 x3 x4 x5 E 4 := by
  unfold val_main_v74
  refine (join5_at4 _ _ _ _ _ concatenates_S2000000x1_S2000000x1_S2000000x1_S2000000x1_S2000000x1_S2000000x5_d1 E).trans ?_
  refine (val_main_v73_apply x0 x1 x2 x3 x4 x5 (ix2 E 0)).trans ?_
  refine (congrArg (val_main_v68 (F := Ideal) x0 x1 x2 x3 x4 x5) (colIdx E 0)).trans ?_
  exact col4 x0 x1 x2 x3 x4 x5 E

/-- THE REFERENCE'S RESULT at (E, r): the score of its gathered rows E under relation r. -/
theorem ref_apply (E : Fin 2000000) (r : Fin 5) :
    val_main_v74 (F := Ideal) x0 x1 x2 x3 x4 x5 (ix2 E r) = refScore x0 x1 x2 x3 x4 x5 E r := by
  match r with
  | ⟨0, _⟩ => exact ref_at0 x0 x1 x2 x3 x4 x5 E
  | ⟨1, _⟩ => exact ref_at1 x0 x1 x2 x3 x4 x5 E
  | ⟨2, _⟩ => exact ref_at2 x0 x1 x2 x3 x4 x5 E
  | ⟨3, _⟩ => exact ref_at3 x0 x1 x2 x3 x4 x5 E
  | ⟨4, _⟩ => exact ref_at4 x0 x1 x2 x3 x4 x5 E

end Cert.ReferenceIdeal.Scores

end
-- ==== Proof.Bridge.lean ====
/-
  The two programs compute one function. Both gather row index[e] of each feature table per edge, after the same
  treatment of a negative index; the kernel program gathers from the narrowed tables, and narrowing is the identity at
  the ideal values, so the gathered rows are the same. Entry (E, r) of either result is then the bilinear score
  Σ_j ((Σ_k u_k w_{r,j,k}) + b_{r,j}) v_j of gathered rows u, v of edge E: the reference sums it per relation over the
  whole arrays and joins the five columns, the kernel sums it block by block into a [5, 2000000] table that the host
  transposes. The two sums have the same terms in the same grouping, so no law of the extended reals beyond 0 + x = x
  is used, and the finiteness of the inputs is never opened.
-/
import proofs.«164486_j80315888435313_1_alg».proof.Proof.KernelRun
import proofs.«164486_j80315888435313_1_alg».proof.Proof.RefScores

set_option maxRecDepth 16384

noncomputable section

namespace Cert.Bridge

open Idealize.ShloMosaic Idealize.ShloMosaic.ValueIdx
open Cert.Lib.BilinearScore

/-- The kernel program's gathered first array is the reference's: the same index treatment and gather, of a table
    whose narrowing changes nothing. -/
theorem gatherU_eq (x0 : FVec Ideal Cert.KernelIdeal.S100000x64 .f32) (x2 : IVec Cert.KernelIdeal.S2000000 32) :
    Cert.KernelIdeal.Scores.gatherU x0 x2 = Cert.ReferenceIdeal.Read.val_main_v6 (F := Ideal) x0 x2 := by
  unfold Cert.KernelIdeal.Scores.gatherU Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0
  rfl

/-- The same for the second array. -/
theorem gatherI_eq (x1 : FVec Ideal Cert.KernelIdeal.S50000x64 .f32) (x3 : IVec Cert.KernelIdeal.S2000000 32) :
    Cert.KernelIdeal.Scores.gatherI x1 x3 = Cert.ReferenceIdeal.Read.val_main_v13 (F := Ideal) x1 x3 := by
  unfold Cert.KernelIdeal.Scores.gatherI Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_c_1
    Cert.ReferenceIdeal.Read.val_main_c_2
  rfl

/-- THE TWO RESULTS ARE ONE FUNCTION of the six arguments. -/
theorem result_eq (x0 : FVec Ideal Cert.KernelIdeal.S100000x64 .f32) (x1 : FVec Ideal Cert.KernelIdeal.S50000x64 .f32)
    (x2 x3 : IVec Cert.KernelIdeal.S2000000 32) (x4 : Vec Ideal Cert.KernelIdeal.S5x64x64 .f32)
    (x5 : Vec Ideal Cert.KernelIdeal.S5x64 .f32) :
    Cert.ReferenceIdeal.Read.val_main_v74 (F := Ideal) x0 x1 x2 x3 x4 x5
      = Cert.KernelIdeal.Scores.resultOf x0 x1 x2 x3 x4 x5 := by
  funext i
  obtain ⟨E, r, rfl⟩ : ∃ (E : Fin 2000000) (r : Fin 5), i = ix2 E r := ⟨i 0, i 1, eq_ix2 i⟩
  rw [Cert.ReferenceIdeal.Scores.ref_apply]
  unfold Cert.ReferenceIdeal.Scores.refScore Cert.KernelIdeal.Scores.resultOf Cert.KernelIdeal.Scores.table
  rw [gatherU_eq, gatherI_eq]

end Cert.Bridge

end
-- ==== Proof.lean ====
/-
  The certificate of a relation-mixing edge scorer. For every edge E = (user, item) and each of five relations r the
  result holds Σ_j ((Σ_k u_k W_{r,j,k}) + b_{r,j}) · v_j, where u and v are the feature rows of the edge's user and
  item. The kernel program gathers the rows on the host (from tables narrowed to a shorter float format), computes the
  scores 3200 edges at a time in a pipelined region that writes a [5, 2000000] table, and transposes it; the reference
  gathers, computes each relation's column over all edges and joins the columns.
  The frames of the two kernel programs are the generated ones; the reference's frame is its generated run with the
  result dropped; the idealization rewrote nothing, so `preserves` is trivial; `algebraic` puts the kernel program's
  run (Proof/KernelBlock.lean: one block; Proof/KernelArray.lean: the array; Proof/KernelRun.lean: the host lines around
  the region) beside the reference's generated run read at an entry (Proof/RefScores.lean), the two results being one
  function of the arguments (Proof/Bridge.lean), over the score's two spellings (Proof/LibBilinearScore.lean).
-/
import proofs.«164486_j80315888435313_1_alg».proof.Defs
import proofs.«164486_j80315888435313_1_alg».proof.Proof.Gen.Kernel
import proofs.«164486_j80315888435313_1_alg».proof.Proof.Gen.Kernel.Skeleton
import proofs.«164486_j80315888435313_1_alg».proof.Proof.Gen.Kernel.Launch
import proofs.«164486_j80315888435313_1_alg».proof.Proof.Gen.Kernel.Points
import proofs.«164486_j80315888435313_1_alg».proof.Proof.Gen.Kernel.Frame
import proofs.«164486_j80315888435313_1_alg».proof.Proof.Gen.KernelIdeal
import proofs.«164486_j80315888435313_1_alg».proof.Proof.Gen.KernelIdeal.Skeleton
import proofs.«164486_j80315888435313_1_alg».proof.Proof.Gen.KernelIdeal.Launch
import proofs.«164486_j80315888435313_1_alg».proof.Proof.Gen.KernelIdeal.Points
import proofs.«164486_j80315888435313_1_alg».proof.Proof.Gen.KernelIdeal.Frame
import proofs.«164486_j80315888435313_1_alg».proof.Proof.Gen.ReferenceIdeal
import proofs.«164486_j80315888435313_1_alg».proof.Proof.Gen.Pre_finite_inputs
import proofs.«164486_j80315888435313_1_alg».proof.Proof.Gen.ReferenceIdeal.Run
import proofs.«164486_j80315888435313_1_alg».proof.Proof.Gen.ReferenceIdeal.Read
import proofs.«164486_j80315888435313_1_alg».proof.Proof.Bridge
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the table of scores of the gathered rows:
    the kernel program's run states it of its own arguments, the reference's run of its own, and the arguments agree. -/
theorem algebraic : Cert.algebraic_KernelIdeal_ReferenceIdeal := by
  intro m ρ m' ρ' _ hagree
  refine ⟨fun c => Cert.KernelIdeal.Scores.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, (hagree c).1, (hagree c).2.1, (hagree c).2.2.1, (hagree c).2.2.2.1,
    (hagree c).2.2.2.2.1, (hagree c).2.2.2.2.2]
  exact Cert.Bridge.result_eq _ _ _ _ _ _

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
